-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x128 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S64x64 : Shape := ⟨2, ![64, 64]⟩
abbrev S4000x64 : Shape := ⟨2, ![4000, 64]⟩
abbrev S4000x1 : Shape := ⟨2, ![4000, 1]⟩
abbrev S1x64 : Shape := ⟨2, ![1, 64]⟩

abbrev nBuf : Space → Nat
  | .hbm => 32
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000x1, .f32⟩
  | .hbm, ⟨23, _⟩ => ⟨S_, .f32⟩
  | .hbm, ⟨24, _⟩ => ⟨S100000x1, .f32⟩
  | .hbm, ⟨25, _⟩ => ⟨S1600000x1, .i32⟩
  | .hbm, ⟨26, _⟩ => ⟨S100000x1, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S64x64, .f32⟩
  | .local _ .vmem, ⟨8, _⟩ => ⟨S64, .f32⟩
  | .local _ .vmem, ⟨9, _⟩ => ⟨S4000x64, .f32⟩
  | .local _ .vmem, ⟨10, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  slices_S64x128_S64x64_0_0 : S64x128.Slices ![0, 0] S64x64
  transposes_S64x64_S64x64_1_0 : S64x64.Transposes [1, 0] S64x64
  slices_S64x128_S64x64_0_64 : S64x128.Slices ![0, 64] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000x1, .f32⟩
  | .hbm, ⟨23, _⟩ => ⟨S_, .f32⟩
  | .hbm, ⟨24, _⟩ => ⟨S100000x1, .f32⟩
  | .hbm, ⟨25, _⟩ => ⟨S1600000x1, .i32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S128x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Layer.lean ====
/-
  One layer of mean-aggregation message passing, as a function of the arrays, entry by entry.

  A node `n` has a feature row `x n`, the sum `nsum n` of the feature rows of its in-neighbours and their number
  `ncount n`. The neighbour mean is `nsum n / (ncount n + ε)` with `ε` the single-precision word nearest 1e-9; the
  layer's output feature `o` at node `n` is

      max (∑ k, x n k · W o k  +  ∑ k, mean n k · W o (64 + k)  +  b o) 0,

  that is, the affine map with the 64 × 128 weight `W` applied to the row `x n` followed by the row `mean n`, then the
  positive part. On the extended reals every operation is the exact one, so the only law used below is that a sum over
  128 terms is the sum over its first 64 plus the sum over its last 64: commutativity and associativity of `+`, which
  hold at the infinities too, so nothing here asks the entries to be finite.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The neighbour mean of feature `k` at node `n`: the neighbour sum over the neighbour count plus `ε`. -/
def mean (nsum : (⟨2, ![100000, 64]⟩ : Shape).Idx → EReal) (ncount : (⟨2, ![100000, 1]⟩ : Shape).Idx → EReal)
    (n : Fin 100000) (k : Fin 64) : EReal :=
  Ideal.div (nsum (ix2 n k)) (ncount (ix2 n (0 : Fin 1)) + Ideal.ofBits .f32 0x3089705F#32)

/-- Output feature `o` at node `n`: the two halves of the weight's row `o` against the node's own features and
    against its neighbour mean, the bias, and the positive part. -/
def layerAt (x nsum : (⟨2, ![100000, 64]⟩ : Shape).Idx → EReal) (ncount : (⟨2, ![100000, 1]⟩ : Shape).Idx → EReal)
    (W : (⟨2, ![64, 128]⟩ : Shape).Idx → EReal) (b : (⟨1, ![64]⟩ : Shape).Idx → EReal) (n : Fin 100000) (o : Fin 64) : EReal :=
  max ((∑ k : Fin 64, x (ix2 n k) * W (ix2 o (Fin.castAdd 64 k))
        + ∑ k : Fin 64, mean nsum ncount n k * W (ix2 o (Fin.natAdd 64 k)))
       + b (ix1 o)) (Ideal.ofBits .f32 0x00000000#32)

/-- The layer's whole output array. -/
def layer (x nsum : (⟨2, ![100000, 64]⟩ : Shape).Idx → EReal) (ncount : (⟨2, ![100000, 1]⟩ : Shape).Idx → EReal)
    (W : (⟨2, ![64, 128]⟩ : Shape).Idx → EReal) (b : (⟨1, ![64]⟩ : Shape).Idx → EReal) :
    (⟨2, ![100000, 64]⟩ : Shape).Idx → EReal :=
  fun i => layerAt x nsum ncount W b (i 0) (i 1)

theorem layer_ix2 (x nsum : (⟨2, ![100000, 64]⟩ : Shape).Idx → EReal) (ncount : (⟨2, ![100000, 1]⟩ : Shape).Idx → EReal)
    (W : (⟨2, ![64, 128]⟩ : Shape).Idx → EReal) (b : (⟨1, ![64]⟩ : Shape).Idx → EReal) (n : Fin 100000) (o : Fin 64) :
    layer x nsum ncount W b (ix2 n o) = layerAt x nsum ncount W b n o := rfl

/-- A sum of 128 extended reals is the sum of the first 64 plus the sum of the last 64. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

end Cert.Sage

end
-- ==== Proof.KernelHost.lean ====
/-
  What the kernel program's host operations leave for the grid.

  Before the grid runs, the program's own host operations produce the neighbour sum (a gather of the source nodes'
  feature rows, scatter-added into the target nodes' rows), the neighbour count (a one scatter-added per edge), and the
  two 64 × 64 halves of the weight, transposed. Entry (`k`, `o`) of the first transposed half is the weight at
  (`o`, `k`), of the second the weight at (`o`, `64 + k`).
-/
import proofs.«113395_j74491912781907_1_alg».proof.Proof.Gen.KernelIdeal.Value
import Idealize.ShloMosaic.Lib.StableHlo.Run
import Idealize.ShloMosaic.Lib.ValueLayout

noncomputable section

namespace Cert.KernelIdeal.Layer

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host operations before the grid leave -/

/-- The neighbour sum: the rows of `x` at the edges' source nodes (an index below zero counted from the end),
    added into the rows at the edges' target nodes, from zero. -/
def hostSum (x : S100000x64.Idx → EReal) (ei : S2x1600000.Idx → BitVec 32) : S100000x64.Idx → EReal :=
  Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (shapeCast _ (extractStridedSlice S1x1600000 ![0, 0] ei slices_S2x1600000_S1x1600000_0_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![1, 0] ei slices_S2x1600000_S1x1600000_1_0) shapeCasts_S1x1600000_S1600000) (broadcastInDim S1600000 ![] bcast_S_S1600000 (constantI S_ 32 0#32))) (addi (shapeCast _ (extractStridedSlice S1x1600000 ![1, 0] ei slices_S2x1600000_S1x1600000_1_0) shapeCasts_S1x1600000_S1600000) (broadcastInDim S1600000 ![] bcast_S_S1600000 (constantI S_ 32 100000#32))) (shapeCast _ (extractStridedSlice S1x1600000 ![1, 0] ei slices_S2x1600000_S1x1600000_1_0) shapeCasts_S1x1600000_S1600000))))

/-- The neighbour count: a one added at each edge's target node, from zero. -/
def hostCount (ei : S2x1600000.Idx → BitVec 32) : S100000x1.Idx → EReal :=
  Host.scatterAdd scatter_S100000x1_S1600000x1_S1600000x1_1_0_0_1 (broadcastInDim S100000x1 ![] bcast_S_S100000x1 (constant (F := Ideal) S_ .f32 0x00000000#32)) (broadcastInDim S1600000x1 ![0] bcast_S1600000_S1600000x1_0 (shapeCast _ (extractStridedSlice S1x1600000 ![0, 0] ei slices_S2x1600000_S1x1600000_0_0) shapeCasts_S1x1600000_S1600000)) (broadcastInDim S1600000x1 ![] bcast_S_S1600000x1 (constant (F := Ideal) S_ .f32 0x3F800000#32))

theorem sum_window (c : Dev nD) :
    (V m c main_v13 : S100000x64.Idx → EReal) = hostSum (m ((c : Thread nD τ).loc main_arg0)) (m ((c : Thread nD τ).loc main_arg1)) := by
  dsimp only [Gen.V, Gen.hostOps0]; after_results; rfl

theorem count_window (c : Dev nD) :
    (V m c main_v17 : S100000x1.Idx → EReal) = hostCount (m ((c : Thread nD τ).loc main_arg1)) := by
  dsimp only [Gen.V, Gen.hostOps0]; after_results; rfl

theorem weight1_window (c : Dev nD) :
    (V m c main_v19 : S64x64.Idx → EReal) = transpose S64x64 [1, 0] (extractStridedSlice S64x64 ![0, 0] (m ((c : Thread nD τ).loc main_arg2) : S64x128.Idx → EReal) slices_S64x128_S64x64_0_0) transposes_S64x64_S64x64_1_0 := by
  dsimp only [Gen.V, Gen.hostOps0]; after_results

theorem weight2_window (c : Dev nD) :
    (V m c main_v21 : S64x64.Idx → EReal) = transpose S64x64 [1, 0] (extractStridedSlice S64x64 ![0, 64] (m ((c : Thread nD τ).loc main_arg2) : S64x128.Idx → EReal) slices_S64x128_S64x64_0_64) transposes_S64x64_S64x64_1_0 := by
  dsimp only [Gen.V, Gen.hostOps0]; after_results

/-- The first transposed half at (`k`, `o`) is the weight at (`o`, `k`). -/
theorem weight1_at (c : Dev nD) (k o : Fin 64) :
    (V m c main_v19 : S64x64.Idx → EReal) (ix2 k o) = (m ((c : Thread nD τ).loc main_arg2) : S64x128.Idx → EReal) (ix2 o (Fin.castAdd 64 k)) := by
  rw [weight1_window, transpose_ix2_apply]
  exact slice2_axis1_apply 0 _ _ o k (Fin.castAdd 64 k) (Nat.zero_add _).symm

/-- The second transposed half at (`k`, `o`) is the weight at (`o`, `64 + k`). -/
theorem weight2_at (c : Dev nD) (k o : Fin 64) :
    (V m c main_v21 : S64x64.Idx → EReal) (ix2 k o) = (m ((c : Thread nD τ).loc main_arg2) : S64x128.Idx → EReal) (ix2 o (Fin.natAdd 64 k)) := by
  rw [weight2_window, transpose_ix2_apply]
  exact slice2_axis1_apply 64 _ _ o k (Fin.natAdd 64 k) rfl

end Cert.KernelIdeal.Layer

end
-- ==== Proof.BlockProduct.lean ====
/-
  One grid step of the kernel, entry by entry.

  A step holds 4000 consecutive nodes: their feature rows `x0`, their neighbour sums `x1`, their neighbour counts `x2`
  (one column), the two 64 × 64 halves `x3`, `x4` of the weight, already transposed (row `k`, column `o`), and the bias
  `x5`. At row `p`, column `o` the step stores

      max (∑ k, x0 p k · x3 k o  +  ∑ k, (x1 p k / (x2 p 0 + ε)) · x4 k o  +  x5 o) 0 :

  a change of float format is the identity on the extended reals, a matrix product into a zero accumulator is the plain
  sum over the contracted axis, and the two broadcasts (the count column across the 64 features, the bias row down the
  4000 nodes) read one entry.
-/
import proofs.«113395_j74491912781907_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-! ## The 4000 × 64 by 64 × 64 product at an entry -/

theorem lhs_axis0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_axis1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_axis0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_axis1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The product into a zero accumulator, at row `p` and column `o`: the sum over the 64 contracted coordinates. -/
theorem product_at {φ₁ φ₂ : FTy} (l : FVec Ideal S4000x64 φ₁) (r : FVec Ideal S64x64 φ₂) (p : Fin 4000) (o : Fin 64) :
    matmul dot_S4000x64_S64x64_S4000x64_1_0_0_1_n_n none l r (constant (F := Ideal) S4000x64 .f32 0x00000000#32) (ix2 p o)
      = ∑ k : Fin 64, l (ix2 p k) * r (ix2 k o) := by
  show FloatOps.matmul dot_S4000x64_S64x64_S4000x64_1_0_0_1_n_n none l r (constant (F := Ideal) S4000x64 .f32 0x00000000#32) (ix2 p o) = _
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p o) ((contrEquiv1 dot_S4000x64_S64x64_S4000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S4000x64_S64x64_S4000x64_1_0_0_1_n_n.rhsIdx (ix2 p o) ((contrEquiv1 dot_S4000x64_S64x64_S4000x64_1_0_0_1_n_n 64 rfl rfl).symm k) = ix2 k o := funext fun a => Fin.ext (by
    match a with
    | ⟨0, _⟩ => exact (rhs_axis0 _ _).trans hk
    | ⟨1, _⟩ => exact rhs_axis1 _ _)
  rw [el, er]

/-! ## The two broadcasts at an entry -/

/-- A column of 4000 entries spread across 64 features reads its row's one entry. -/
theorem column_at {α : Type} (v : S4000x1.Idx → α) (p : Fin 4000) (k : Fin 64) :
    broadcastTo S4000x64 v broadcasts_S4000x1_S4000x64 (ix2 p k) = v (ix2 p (0 : Fin 1)) := by
  refine broadcastTo_apply v broadcasts_S4000x1_S4000x64 (ix2 p k) (ix2 p (0 : Fin 1)) fun ax => ?_
  match ax with
  | ⟨0, _⟩ =>
    show p.val = if (4000 : Nat) = 1 then 0 else p.val
    rw [if_neg (by decide)]
  | ⟨1, _⟩ =>
    show (0 : Nat) = if (1 : Nat) = 1 then 0 else k.val
    rw [if_pos rfl]

/-- The bias, laid as one row and spread down the 4000 nodes, reads its column's entry. -/
theorem bias_at {α : Type} (v : S64.Idx → α) (p : Fin 4000) (o : Fin 64) :
    broadcastTo S4000x64 (shapeCast S1x64 v shapeCasts_S64_S1x64) broadcasts_S1x64_S4000x64 (ix2 p o) = v (ix1 o) := by
  rw [broadcastTo_1b_ab_apply, shapeCast_a_1a_apply]

/-! ## The stored value at an entry -/

theorem pay_apply (x0 x1 : Vec Ideal S4000x64 .f32) (x2 : Vec Ideal S4000x1 .f32) (x3 x4 : Vec Ideal S64x64 .f32)
    (x5 : Vec Ideal S64 .f32) (p : Fin 4000) (o : Fin 64) :
    k0_pay1 x0 x1 x2 x3 x4 x5 (ix2 p o)
      = max ((∑ k : Fin 64, x0 (ix2 p k) * x3 (ix2 k o)
              + ∑ k : Fin 64, Ideal.div (x1 (ix2 p k)) (x2 (ix2 p (0 : Fin 1)) + Ideal.ofBits .f32 0x3089705F#32) * x4 (ix2 k o))
             + x5 (ix1 o)) (Ideal.ofBits .f32 0x00000000#32) := by
  unfold k0_pay1
  simp only [shapeCast_self]
  rw [maximumf_apply, addf_apply, addf_apply, product_at, product_at, bias_at]
  simp only [truncf_apply, divf_apply, column_at, addf_apply, broadcast_apply]
  rfl

end Cert.KernelIdeal.Block

end
-- ==== Proof.KernelLayer.lean ====
/-
  The kernel's result array is the layer of Layer.lean.

  Grid step `t` works on nodes `4000 t … 4000 t + 3999`: its blocks of the features, of the neighbour sum and of the
  neighbour count are those rows of the whole arrays, the two transposed weight halves and the bias are whole at every
  step, and the block it stores is BlockProduct.lean's value at those rows. With the weight halves read back to the
  weight itself (KernelHost.lean) a step therefore writes rows `4000 t …` of the layer, and the 25 steps' row blocks
  tile the 100000 rows. Each read of a block is first stated for an arbitrary array, so that the neighbour sum and
  count enter only as names.
-/
import proofs.«113395_j74491912781907_1_alg».proof.Proof.KernelHost
import proofs.«113395_j74491912781907_1_alg».proof.Proof.BlockProduct
import proofs.«113395_j74491912781907_1_alg».proof.Proof.Layer

noncomputable section

namespace Cert.KernelIdeal.Layer

open Cert.KernelIdeal Cert.KernelIdeal.Gen Cert.KernelIdeal.Value Idealize.ShloMosaic Idealize.ShloMosaic.TcCoe
open Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the windows stage -/

theorem features_ref : Pipeline.arrRef spec0 (0 : Fin cfg0.W) = main_arg0 := rfl
theorem sum_ref : Pipeline.arrRef spec0 (1 : Fin cfg0.W) = main_v13 := rfl
theorem count_ref : Pipeline.arrRef spec0 (2 : Fin cfg0.W) = main_v17 := rfl
theorem weight1_ref : Pipeline.arrRef spec0 (3 : Fin cfg0.W) = main_v19 := rfl
theorem weight2_ref : Pipeline.arrRef spec0 (4 : Fin cfg0.W) = main_v21 := rfl
theorem bias_ref : Pipeline.arrRef spec0 (5 : Fin cfg0.W) = main_arg3 := rfl

/-- Equal references hold equal contents when the grid starts. -/
theorem V_congr (c : Dev nD) {b b' : Ref sig .tc} (h : b = b') : HEq (V m c b) (V m c b') := by
  subst h; exact HEq.rfl

theorem features_array (c : Dev nD) :
    (V m c (Pipeline.arrRef spec0 (0 : Fin cfg0.W)) : S100000x64.Idx → EReal) = m ((c : Thread nD τ).loc main_arg0) :=
  (eq_of_heq (V_congr m c features_ref)).trans (V_main_arg0 m c)

theorem sum_array (c : Dev nD) :
    (V m c (Pipeline.arrRef spec0 (1 : Fin cfg0.W)) : S100000x64.Idx → EReal)
      = hostSum (m ((c : Thread nD τ).loc main_arg0)) (m ((c : Thread nD τ).loc main_arg1)) :=
  (eq_of_heq (V_congr m c sum_ref)).trans (sum_window m c)

theorem count_array (c : Dev nD) :
    (V m c (Pipeline.arrRef spec0 (2 : Fin cfg0.W)) : S100000x1.Idx → EReal) = hostCount (m ((c : Thread nD τ).loc main_arg1)) :=
  (eq_of_heq (V_congr m c count_ref)).trans (count_window m c)

theorem weight1_array (c : Dev nD) :
    (V m c (Pipeline.arrRef spec0 (3 : Fin cfg0.W)) : S64x64.Idx → EReal) = (V m c main_v19 : S64x64.Idx → EReal) :=
  eq_of_heq (V_congr m c weight1_ref)

theorem weight2_array (c : Dev nD) :
    (V m c (Pipeline.arrRef spec0 (4 : Fin cfg0.W)) : S64x64.Idx → EReal) = (V m c main_v21 : S64x64.Idx → EReal) :=
  eq_of_heq (V_congr m c weight2_ref)

theorem bias_array (c : Dev nD) :
    (V m c (Pipeline.arrRef spec0 (5 : Fin cfg0.W)) : S64.Idx → EReal) = m ((c : Thread nD τ).loc main_arg3) :=
  (eq_of_heq (V_congr m c bias_ref)).trans (V_main_arg3 m c)

/-! ## A step's blocks are rows of the whole arrays -/

/-- The printed index maps over the 25 steps: the three node-indexed inputs and the output sit at row block `t`,
    the two weight halves and the bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Window 0's block at step `t` of any array: row `p` of the block is row `4000 t + p` of the array. -/
theorem rows0 (A : S100000x64.Idx → EReal) (t : Fin cfg0.N) (p : Fin 4000) (k : Fin 64) (n : Fin 100000)
    (hn : n.val = 4000 * t.val + p.val) :
    (((cfg0.win 0).blk t).view.read (Elt Ideal) A : Vec Ideal S4000x64 .f32) (ix2 p k) = A (ix2 n k) := by
  obtain ⟨e0, e1, -⟩ := idx_facts t
  rw [View.read_apply]
  refine congrArg A (funext fun a => Fin.ext ?_)
  match a with
  | ⟨0, _⟩ => show win0_0.index t 0 * 4000 + 1 * p.val = n.val; rw [e0, hn]; omega
  | ⟨1, _⟩ => show win0_0.index t 1 * 64 + 1 * k.val = k.val; rw [e1]; omega

/-- The same for window 1. -/
theorem rows1 (A : S100000x64.Idx → EReal) (t : Fin cfg0.N) (p : Fin 4000) (k : Fin 64) (n : Fin 100000)
    (hn : n.val = 4000 * t.val + p.val) :
    (((cfg0.win 1).blk t).view.read (Elt Ideal) A : Vec Ideal S4000x64 .f32) (ix2 p k) = A (ix2 n k) := by
  obtain ⟨-, -, e0, e1, -⟩ := idx_facts t
  rw [View.read_apply]
  refine congrArg A (funext fun a => Fin.ext ?_)
  match a with
  | ⟨0, _⟩ => show win0_1.index t 0 * 4000 + 1 * p.val = n.val; rw [e0, hn]; omega
  | ⟨1, _⟩ => show win0_1.index t 1 * 64 + 1 * k.val = k.val; rw [e1]; omega

/-- Window 2's block of a one-column array: entry `p` is entry `4000 t + p`. -/
theorem rows2 (A : S100000x1.Idx → EReal) (t : Fin cfg0.N) (p : Fin 4000) (n : Fin 100000)
    (hn : n.val = 4000 * t.val + p.val) :
    (((cfg0.win 2).blk t).view.read (Elt Ideal) A : Vec Ideal S4000x1 .f32) (ix2 p (0 : Fin 1)) = A (ix2 n (0 : Fin 1)) := by
  obtain ⟨-, -, -, -, e0, e1, -⟩ := idx_facts t
  rw [View.read_apply]
  refine congrArg A (funext fun a => Fin.ext ?_)
  match a with
  | ⟨0, _⟩ => show win0_2.index t 0 * 4000 + 1 * p.val = n.val; rw [e0, hn]; omega
  | ⟨1, _⟩ => show win0_2.index t 1 * 1 + 1 * 0 = 0; rw [e1]

/-- Windows 3 and 4 hold their whole 64 × 64 array at every step. -/
theorem whole3 (A : S64x64.Idx → EReal) (t : Fin cfg0.N) (k o : Fin 64) :
    (((cfg0.win 3).blk t).view.read (Elt Ideal) A : Vec Ideal S64x64 .f32) (ix2 k o) = A (ix2 k o) := by
  obtain ⟨-, -, -, -, -, -, e0, e1, -⟩ := idx_facts t
  rw [View.read_apply]
  refine congrArg A (funext fun a => Fin.ext ?_)
  match a with
  | ⟨0, _⟩ => show win0_3.index t 0 * 64 + 1 * k.val = k.val; rw [e0]; omega
  | ⟨1, _⟩ => show win0_3.index t 1 * 64 + 1 * o.val = o.val; rw [e1]; omega

theorem whole4 (A : S64x64.Idx → EReal) (t : Fin cfg0.N) (k o : Fin 64) :
    (((cfg0.win 4).blk t).view.read (Elt Ideal) A : Vec Ideal S64x64 .f32) (ix2 k o) = A (ix2 k o) := by
  obtain ⟨-, -, -, -, -, -, -, -, e0, e1, -⟩ := idx_facts t
  rw [View.read_apply]
  refine congrArg A (funext fun a => Fin.ext ?_)
  match a with
  | ⟨0, _⟩ => show win0_4.index t 0 * 64 + 1 * k.val = k.val; rw [e0]; omega
  | ⟨1, _⟩ => show win0_4.index t 1 * 64 + 1 * o.val = o.val; rw [e1]; omega

/-- Window 5 holds the whole bias at every step. -/
theorem whole5 (A : S64.Idx → EReal) (t : Fin cfg0.N) (o : Fin 64) :
    (((cfg0.win 5).blk t).view.read (Elt Ideal) A : Vec Ideal S64 .f32) (ix1 o) = A (ix1 o) := by
  obtain ⟨-, -, -, -, -, -, -, -, -, -, e0, -⟩ := idx_facts t
  rw [View.read_apply]
  refine congrArg A (funext fun a => Fin.ext ?_)
  match a with
  | ⟨0, _⟩ => show win0_5.index t 0 * 64 + 1 * o.val = o.val; rw [e0]; omega

theorem features_block (c : Dev nD) (t : Fin cfg0.N) (p : Fin 4000) (k : Fin 64) (n : Fin 100000)
    (hn : n.val = 4000 * t.val + p.val) :
    (iblk m c 0 t : Vec Ideal S4000x64 .f32) (ix2 p k) = (m ((c : Thread nD τ).loc main_arg0) : S100000x64.Idx → EReal) (ix2 n k) := by
  have hblk : iblk m c 0 t = ((cfg0.win 0).blk t).view.read (Elt Ideal) (m ((c : Thread nD τ).loc main_arg0)) := by
    unfold iblk
    exact congrArg (((cfg0.win 0).blk t).view.read (Elt Ideal)) (features_array m c)
  rw [hblk]
  exact rows0 _ t p k n hn

theorem sum_block (c : Dev nD) (t : Fin cfg0.N) (p : Fin 4000) (k : Fin 64) (n : Fin 100000)
    (hn : n.val = 4000 * t.val + p.val) :
    (iblk m c 1 t : Vec Ideal S4000x64 .f32) (ix2 p k)
      = hostSum (m ((c : Thread nD τ).loc main_arg0)) (m ((c : Thread nD τ).loc main_arg1)) (ix2 n k) := by
  have hblk : iblk m c 1 t = ((cfg0.win 1).blk t).view.read (Elt Ideal)
      (hostSum (m ((c : Thread nD τ).loc main_arg0)) (m ((c : Thread nD τ).loc main_arg1))) := by
    unfold iblk
    exact congrArg (((cfg0.win 1).blk t).view.read (Elt Ideal)) (sum_array m c)
  rw [hblk]
  exact rows1 _ t p k n hn

theorem count_block (c : Dev nD) (t : Fin cfg0.N) (p : Fin 4000) (n : Fin 100000)
    (hn : n.val = 4000 * t.val + p.val) :
    (iblk m c 2 t : Vec Ideal S4000x1 .f32) (ix2 p (0 : Fin 1))
      = hostCount (m ((c : Thread nD τ).loc main_arg1)) (ix2 n (0 : Fin 1)) := by
  have hblk : iblk m c 2 t = ((cfg0.win 2).blk t).view.read (Elt Ideal) (hostCount (m ((c : Thread nD τ).loc main_arg1))) := by
    unfold iblk
    exact congrArg (((cfg0.win 2).blk t).view.read (Elt Ideal)) (count_array m c)
  rw [hblk]
  exact rows2 _ t p n hn

theorem weight1_block (c : Dev nD) (t : Fin cfg0.N) (k o : Fin 64) :
    (iblk m c 3 t : Vec Ideal S64x64 .f32) (ix2 k o) = (m ((c : Thread nD τ).loc main_arg2) : S64x128.Idx → EReal) (ix2 o (Fin.castAdd 64 k)) := by
  have hblk : iblk m c 3 t = ((cfg0.win 3).blk t).view.read (Elt Ideal) (V m c main_v19 : S64x64.Idx → EReal) := by
    unfold iblk
    exact congrArg (((cfg0.win 3).blk t).view.read (Elt Ideal)) (weight1_array m c)
  rw [hblk]
  exact (whole3 _ t k o).trans (weight1_at m c k o)

theorem weight2_block (c : Dev nD) (t : Fin cfg0.N) (k o : Fin 64) :
    (iblk m c 4 t : Vec Ideal S64x64 .f32) (ix2 k o) = (m ((c : Thread nD τ).loc main_arg2) : S64x128.Idx → EReal) (ix2 o (Fin.natAdd 64 k)) := by
  have hblk : iblk m c 4 t = ((cfg0.win 4).blk t).view.read (Elt Ideal) (V m c main_v21 : S64x64.Idx → EReal) := by
    unfold iblk
    exact congrArg (((cfg0.win 4).blk t).view.read (Elt Ideal)) (weight2_array m c)
  rw [hblk]
  exact (whole4 _ t k o).trans (weight2_at m c k o)

theorem bias_block (c : Dev nD) (t : Fin cfg0.N) (o : Fin 64) :
    (iblk m c 5 t : Vec Ideal S64 .f32) (ix1 o) = (m ((c : Thread nD τ).loc main_arg3) : S64.Idx → EReal) (ix1 o) := by
  have hblk : iblk m c 5 t = ((cfg0.win 5).blk t).view.read (Elt Ideal) (m ((c : Thread nD τ).loc main_arg3)) := by
    unfold iblk
    exact congrArg (((cfg0.win 5).blk t).view.read (Elt Ideal)) (bias_array m c)
  rw [hblk]
  exact whole5 _ t o

/-! ## What a step stores is the layer at its rows -/

/-- The layer of the arrays as the grid finds them. -/
def result (c : Dev nD) : S100000x64.Idx → EReal :=
  Cert.Sage.layer (m ((c : Thread nD τ).loc main_arg0)) (hostSum (m ((c : Thread nD τ).loc main_arg0)) (m ((c : Thread nD τ).loc main_arg1)))
    (hostCount (m ((c : Thread nD τ).loc main_arg1))) (m ((c : Thread nD τ).loc main_arg2)) (m ((c : Thread nD τ).loc main_arg3))

theorem step_eq (c : Dev nD) (t : Fin cfg0.N) (p : Fin 4000) (o : Fin 64) (n : Fin 100000) (hn : n.val = 4000 * t.val + p.val) :
    k0_pay1 (F := Ideal) (iblk m c 0 t) (iblk m c 1 t) (iblk m c 2 t) (iblk m c 3 t) (iblk m c 4 t) (iblk m c 5 t) (ix2 p o)
      = result m c (ix2 n o) := by
  refine (Block.pay_apply (iblk m c 0 t) (iblk m c 1 t) (iblk m c 2 t) (iblk m c 3 t) (iblk m c 4 t) (iblk m c 5 t) p o).trans ?_
  unfold result
  rw [Cert.Sage.layer_ix2]
  unfold Cert.Sage.layerAt Cert.Sage.mean
  refine congrArg (fun z : EReal => max z (Ideal.ofBits .f32 0x00000000#32)) ?_
  refine congrArg₂ (fun y z : EReal => y + z)
    (congrArg₂ (fun y z : EReal => y + z) (Finset.sum_congr rfl fun k _ => ?_) (Finset.sum_congr rfl fun k _ => ?_))
    (bias_block m c t o)
  · rw [features_block m c t p k n hn, weight1_block m c t k o]
  · rw [sum_block m c t p k n hn, count_block m c t p n hn, weight2_block m c t k o]

/-! ## The steps' row blocks tile the array -/

theorem hz2 : (![0, 0] : Fin 2 → Nat) = fun _ => 0 := funext fun a => by fin_cases a <;> rfl
theorem hz1 : (![0] : Fin 1 → Nat) = fun _ => 0 := funext fun a => by fin_cases a <;> rfl

/-- A 4000 × 64 block that agrees, row `p` with row `4000 t + p`, with an array is what step `t`'s output window
    reads of that array. -/
theorem flushed_of (P : Vec Ideal S4000x64 .f32) (R : S100000x64.Idx → EReal) (t : Fin cfg0.N)
    (h : ∀ (p : Fin 4000) (o : Fin 64) (n : Fin 100000), n.val = 4000 * t.val + p.val → P (ix2 p o) = R (ix2 n o)) :
    (cfg0.win 6).cut (grid0.coords t) P = ((cfg0.win 6).blk t).view.read (Elt Ideal) R := by
  obtain ⟨-, -, -, -, -, -, -, -, -, -, -, e0, e1⟩ := idx_facts t
  funext j
  have ht : t.val < 25 := Nat.lt_of_lt_of_eq t.isLt N_0
  have hj0 : (j 0).val < 4000 := (j 0).isLt
  have hj1 : (j 1).val < 64 := (j 1).isLt
  rw [View.read_apply]
  show P j = R _
  have hj : (j : S4000x64.Idx) = ix2 (⟨(j 0).val, hj0⟩ : Fin 4000) (⟨(j 1).val, hj1⟩ : Fin 64) :=
    funext fun a => by match a with | ⟨0, _⟩ => rfl | ⟨1, _⟩ => rfl
  refine (congrArg P hj).trans ((h _ _ ⟨4000 * t.val + (j 0).val, by omega⟩ rfl).trans (congrArg R (funext fun a => Fin.ext ?_)))
  match a with
  | ⟨0, _⟩ => show 4000 * t.val + (j 0).val = win0_6.index t 0 * 4000 + 1 * (j 0).val; rw [e0]; omega
  | ⟨1, _⟩ => show (j 1).val = win0_6.index t 1 * 64 + 1 * (j 1).val; rw [e1]; omega

/-- What step `t` writes back is its row block of the layer. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz2]
  simp only [View.ld_unit_zero (S := S4000x64) hz2, View.ld_unit_zero (S := S4000x1) hz2, View.ld_unit_zero (S := S64x64) hz2,
    View.ld_unit_zero (S := S64) hz1]
  exact flushed_of _ (result m c) t (fun p o n hn => step_eq m c t p o n hn)

/-- An index of the array lies in step `t`'s block iff each coordinate lies in the block's range. -/
theorem mem_block (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v22).slice (win0_6.rect t)).set ↔ _
  rw [View.set_slice_whole, Rect.mem_set_unit]
  exact Iff.rfl

/-- Row `r` lies in the block of step `r / 4000`. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, e0, e1⟩ := idx_facts t
  refine ⟨t, flush0_6 t, ?_⟩
  rw [mem_block]
  intro a
  match a with
  | ⟨0, _⟩ => show win0_6.index t 0 * 4000 ≤ (i 0).val ∧ (i 0).val < win0_6.index t 0 * 4000 + 4000; rw [e0, ht]; omega
  | ⟨1, _⟩ => show win0_6.index t 1 * 64 ≤ (i 1).val ∧ (i 1).val < win0_6.index t 1 * 64 + 64; rw [e1]; omega

/-- The result array after the run is the layer. -/
theorem final (c : Dev nD) : (dats m 0 c).arrAt 6 cfg0.N = result m c :=
  (dats m 0 c).arrAt_eq_of_cover 6 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.RefLayer.lean ====
/-
  The reference program's result is the layer of Layer.lean.

  The reference lays each node's own features and its neighbour mean side by side in one row of 128 and contracts that
  row with the transposed 128 × 64 weight. Column `k` of the joined row is the node's feature `k` for `k < 64` and the
  mean's feature `k - 64` from there on, and the transposed weight at (`k`, `o`) is the weight at (`o`, `k`): so the
  contraction over 128 columns is the sum over the first 64 plus the sum over the last 64, which is the layer's two sums.
  The neighbour sum and count enter only as the values the gather and the two scatter-adds produce.
-/
import proofs.«113395_j74491912781907_1_alg».proof.Proof.Gen.ReferenceIdeal.Read
import proofs.«113395_j74491912781907_1_alg».proof.Proof.Layer

noncomputable section

namespace Cert.ReferenceIdeal.Layer

open Cert.ReferenceIdeal Cert.ReferenceIdeal.Gen Cert.ReferenceIdeal.Read Idealize.ShloMosaic Idealize.ShloMosaic.ValueIdx

/-! ## The joined row at a column of its first and of its second half -/

theorem joined_left (x y : S100000x64.Idx → EReal) (n : Fin 100000) (o k : Fin 64) :
    concatenate S100000x128 1 [⟨S100000x64, x⟩, ⟨S100000x64, y⟩] concatenates_S100000x64_S100000x64_S100000x128_d1
      (lidx_main_v24 (ix2 n o) (Fin.castAdd 64 k)) = x (ix2 n k) := by
  refine concatenate_pair_apply_left (t := S100000x128) 1 x y concatenates_S100000x64_S100000x64_S100000x128_d1
    (lidx_main_v24 (ix2 n o) (Fin.castAdd 64 k)) rfl (ix2 n k) fun b => ?_
  match b with
  | ⟨0, _⟩ => rfl
  | ⟨1, _⟩ => rfl

theorem joined_right (x y : S100000x64.Idx → EReal) (n : Fin 100000) (o k : Fin 64) :
    concatenate S100000x128 1 [⟨S100000x64, x⟩, ⟨S100000x64, y⟩] concatenates_S100000x64_S100000x64_S100000x128_d1
      (lidx_main_v24 (ix2 n o) (Fin.natAdd 64 k)) = y (ix2 n k) := by
  refine concatenate_pair_apply_right (t := S100000x128) 1 x y concatenates_S100000x64_S100000x64_S100000x128_d1
    (lidx_main_v24 (ix2 n o) (Fin.natAdd 64 k)) rfl rfl (ix2 n k) (fun b hb => ?_) ?_
  · match b with
    | ⟨0, _⟩ => rfl
    | ⟨1, _⟩ => exact absurd rfl hb
  · show k.val + 64 = 64 + k.val
    omega

/-! ## The composed index maps, as coordinates -/

theorem weight_idx (n : Fin 100000) (o : Fin 64) (k : Fin 128) :
    idx_main_v23 (ridx_main_v24 (ix2 n o) k) = ix2 o k :=
  funext fun a => Fin.ext (by match a with | ⟨0, _⟩ => rfl | ⟨1, _⟩ => rfl)

theorem bias_idx (n : Fin 100000) (o : Fin 64) : idx_main_v25 (idx_main_v26 (ix2 n o)) = ix1 o :=
  funext fun a => Fin.ext (by match a with | ⟨0, _⟩ => rfl)

theorem count_idx (n : Fin 100000) (k : Fin 64) : idx_main_v20 (ix2 n k) = ix2 n (0 : Fin 1) :=
  funext fun a => Fin.ext (by match a with | ⟨0, _⟩ => rfl | ⟨1, _⟩ => rfl)

/-! ## The result -/

/-- The reference's result array is the layer of the node features, of the neighbour sum and count its own gather and
    scatter-adds produce, of the weight and of the bias. -/
theorem result_eq (x : S100000x64.Idx → EReal) (ei : S2x1600000.Idx → BitVec 32) (W : S64x128.Idx → EReal) (b : S64.Idx → EReal) :
    val_main_v28 (F := Ideal) x ei W b
      = Cert.Sage.layer x (val_main_v13 (F := Ideal) x ei) (val_main_v17 (F := Ideal) ei) W b := by
  funext i
  obtain ⟨n, o, rfl⟩ : ∃ (n : Fin 100000) (o : Fin 64), i = ix2 n o := ⟨i 0, i 1, eq_ix2 i⟩
  rw [Cert.Sage.layer_ix2]
  unfold Cert.Sage.layerAt Cert.Sage.mean
  rw [val_main_v28_apply, val_main_v27_apply, val_main_v24_apply, val_main_v26_apply, val_main_v25_apply,
    val_main_call0_v0_apply, val_main_call0_cst_apply]
  rw [bias_idx, Cert.Sage.sum_halves]
  have own : ∀ k : Fin 64,
      val_main_v22 (F := Ideal) x ei (lidx_main_v24 (ix2 n o) (Fin.castAdd 64 k)) * val_main_v23 (F := Ideal) W (ridx_main_v24 (ix2 n o) (Fin.castAdd 64 k))
        = x (ix2 n k) * W (ix2 o (Fin.castAdd 64 k)) := fun k => by
    rw [val_main_v23_apply, weight_idx]
    unfold val_main_v22
    rw [joined_left]
  have nbr : ∀ k : Fin 64,
      val_main_v22 (F := Ideal) x ei (lidx_main_v24 (ix2 n o) (Fin.natAdd 64 k)) * val_main_v23 (F := Ideal) W (ridx_main_v24 (ix2 n o) (Fin.natAdd 64 k))
        = Ideal.div (val_main_v13 (F := Ideal) x ei (ix2 n k)) (val_main_v17 (F := Ideal) ei (ix2 n (0 : Fin 1)) + Ideal.ofBits .f32 0x3089705F#32)
          * W (ix2 o (Fin.natAdd 64 k)) := fun k => by
    rw [val_main_v23_apply, weight_idx]
    unfold val_main_v22
    rw [joined_right, val_main_v21_apply, val_main_v20_apply, count_idx, val_main_v19_apply, val_main_v18_apply,
      val_main_cst_3_apply]
    simp only [Ideal.hostDivf_def, Ideal.addf_def, Ideal.ofBits_def]
  rw [Finset.sum_congr rfl (fun k _ => own k), Finset.sum_congr rfl (fun k _ => nbr k)]
  simp only [Ideal.maximumf_def, Ideal.addf_def, Ideal.ofBits_def]

end Cert.ReferenceIdeal.Layer

end
-- ==== Proof.Aggregation.lean ====
/-
  Both programs aggregate over the edges by the same host operations.

  The kernel program and the reference compute the neighbour sum and the neighbour count before anything else, and by
  the same sequence: the edges' target and source rows cut out of the edge index, a source index below zero moved up by
  the number of nodes, the gather of the source nodes' feature rows, and the two scatter-adds into zero arrays. Written
  over each program's own shape records the two terms are one term, so the two values are equal without the gather or
  the scatter-adds ever being opened.
-/
import proofs.«113395_j74491912781907_1_alg».proof.Proof.KernelLayer
import proofs.«113395_j74491912781907_1_alg».proof.Proof.RefLayer

noncomputable section

namespace Cert.Aggregation

open Idealize.ShloMosaic

theorem sum_eq (x : Cert.KernelIdeal.S100000x64.Idx → EReal) (ei : Cert.KernelIdeal.S2x1600000.Idx → BitVec 32) :
    Cert.KernelIdeal.Layer.hostSum x ei = Cert.ReferenceIdeal.Read.val_main_v13 (F := Ideal) x ei := rfl

theorem count_eq (ei : Cert.KernelIdeal.S2x1600000.Idx → BitVec 32) :
    Cert.KernelIdeal.Layer.hostCount ei = Cert.ReferenceIdeal.Read.val_main_v17 (F := Ideal) ei := rfl

end Cert.Aggregation

end
-- ==== Proof.lean ====
/-
  A mean-aggregation message-passing layer, kernel against reference, over the extended reals.

  Both programs first compute, by the same host operations, the sum of every node's in-neighbours' feature rows and the
  number of those neighbours. The reference then joins each node's features with its neighbour mean,
  `sum / (count + ε)`, into a row of 128, multiplies by the transposed weight, adds the bias and takes the positive
  part. The kernel never forms the joined row: per block of 4000 nodes it multiplies the features by the first half of
  the weight and the neighbour mean by the second half, adds the two products and the bias, and takes the positive part.
  On the extended reals the two are one function (Layer.lean's `layer`), because a sum over 128 columns is the sum over
  the first 64 plus the sum over the last 64; nothing asks the inputs to be finite, so the precondition is never opened.

  The kernel's frame and the word-level kernel's frame are the generated ones; the reference's frame is its generated
  run with the result dropped; no operation was rewritten for the idealized reading, so there is nothing to preserve.
-/
import proofs.«113395_j74491912781907_1_alg».proof.Defs
import proofs.«113395_j74491912781907_1_alg».proof.Proof.Gen.Kernel
import proofs.«113395_j74491912781907_1_alg».proof.Proof.Gen.Kernel.Skeleton
import proofs.«113395_j74491912781907_1_alg».proof.Proof.Gen.Kernel.Launch
import proofs.«113395_j74491912781907_1_alg».proof.Proof.Gen.Kernel.Points
import proofs.«113395_j74491912781907_1_alg».proof.Proof.Gen.Kernel.Frame
import proofs.«113395_j74491912781907_1_alg».proof.Proof.Gen.KernelIdeal
import proofs.«113395_j74491912781907_1_alg».proof.Proof.Gen.KernelIdeal.Skeleton
import proofs.«113395_j74491912781907_1_alg».proof.Proof.Gen.KernelIdeal.Launch
import proofs.«113395_j74491912781907_1_alg».proof.Proof.Gen.KernelIdeal.Points
import proofs.«113395_j74491912781907_1_alg».proof.Proof.Gen.KernelIdeal.Frame
import proofs.«113395_j74491912781907_1_alg».proof.Proof.Gen.ReferenceIdeal
import proofs.«113395_j74491912781907_1_alg».proof.Proof.Gen.KernelIdeal.Value
import proofs.«113395_j74491912781907_1_alg».proof.Proof.Gen.ReferenceIdeal.Run
import proofs.«113395_j74491912781907_1_alg».proof.Proof.Gen.ReferenceIdeal.Read
import proofs.«113395_j74491912781907_1_alg».proof.Proof.Gen.Pre_finite_inputs
import proofs.«113395_j74491912781907_1_alg».proof.Proof.Layer
import proofs.«113395_j74491912781907_1_alg».proof.Proof.KernelLayer
import proofs.«113395_j74491912781907_1_alg».proof.Proof.RefLayer
import proofs.«113395_j74491912781907_1_alg».proof.Proof.Aggregation
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array ends at the layer of the arguments
    (KernelLayer.lean), and the reference's at the layer of its own arguments (RefLayer.lean) over the neighbour sum and
    count that its host operations compute — the same values as the kernel's (Aggregation.lean). -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v28_eq _ _ _ _).trans ((Cert.ReferenceIdeal.Layer.result_eq _ _ _ _).trans ?_)
  show _ = Cert.KernelIdeal.Layer.result m c
  unfold Cert.KernelIdeal.Layer.result
  rw [Cert.Aggregation.sum_eq, Cert.Aggregation.count_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
